-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S10000x128 .f32) (main_arg1 : FVec F S10000x10000 .f32) (main_arg2 : FVec F S128x128 .f32) (main_arg3 : FVec F S128 .f32) (main_arg4 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩
abbrev S1x1 : Shape := ⟨2, ![1, 1]⟩
abbrev S240x10000 : Shape := ⟨2, ![240, 10000]⟩
abbrev S240x128 : Shape := ⟨2, ![240, 128]⟩
abbrev S1x10000x128 : Shape := ⟨3, ![1, 10000, 128]⟩

abbrev nBuf : Space → Nat
  | .hbm => 9
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S1x128, .f32⟩
  | .hbm, ⟨6, _⟩ => ⟨S1x1, .f32⟩
  | .hbm, ⟨7, _⟩ => ⟨S10000x128, .f32⟩
  | .hbm, ⟨8, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S240x10000, .f32⟩
  | .local _ .vmem, ⟨3, _⟩ => ⟨S240x10000, .f32⟩
  | .local _ .vmem, ⟨4, _⟩ => ⟨S1x128, .f32⟩
  | .local _ .vmem, ⟨5, _⟩ => ⟨S1x1, .f32⟩
  | .local _ .vmem, ⟨6, _⟩ => ⟨S240x128, .f32⟩
  | .local _ .vmem, ⟨7, _⟩ => ⟨S240x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![42], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S240x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S240x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  shapeCasts_S_S1x1 : S_.ShapeCasts S1x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S240x10000_S240x10000_0_0 : ∀ a, (![0, 0] : Fin 2 → Nat) a + S240x10000.size a ≤ S240x10000.size a
  h_S240x10000 : 0 < S240x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S240x128 : S1x128.Broadcasts S240x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S240x128_S240x128_0_0 : ∀ a, (![0, 0] : Fin 2 → Nat) a + S240x128.size a ≤ S240x128.size a
  h_S240x128 : 0 < S240x128.numel
  bcast_S10000x128_S1x10000x128_1_2 : S10000x128.BroadcastsInDim S1x10000x128 (![1, 2] : Fin 2 → Fin S1x10000x128.rank)
  dot_S10000x128_S128x128_S10000x128_1_1_0_0_n_n_wf : DotDims.WF S10000x128 S128x128 S10000x128 [1] [1] [0] [0] [] []
  dot_S240x10000_S10000x128_S240x128_1_0_0_1_n_n_wf : DotDims.WF S240x10000 S10000x128 S240x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S240x10000.size a < S10000x10000.size a
  hwx0_2 : ∀ i : grid0.Coords, EltTy.bits .f32 = 32 ∨ (Rect.unit (s := S10000x10000) (fun a => cc0_transform_2 i a * S240x10000.size a) (fun a => (Pipeline.Clip.of (cc0_transform_2 i a) (S240x10000.size a) (S10000x10000.size a)).extent (S240x10000.size a)) fun a => Pipeline.Clip.inb (Pipeline.Clip.ok_of (hstart0_2 i a))).WholeWords (EltTy.packing .f32)
  hwxs0_2 : ∀ i : grid0.Coords, EltTy.bits .f32 = 32 ∨ (Rect.unit (s := S240x10000) (fun _ => 0) (fun a => (Pipeline.Clip.of (cc0_transform_2 i a) (S240x10000.size a) (S10000x10000.size a)).extent (S240x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S240x128.size a < S10000x128.size a
  hwx0_5 : ∀ i : grid0.Coords, EltTy.bits .f32 = 32 ∨ (Rect.unit (s := S10000x128) (fun a => cc0_transform_5 i a * S240x128.size a) (fun a => (Pipeline.Clip.of (cc0_transform_5 i a) (S240x128.size a) (S10000x128.size a)).extent (S240x128.size a)) fun a => Pipeline.Clip.inb (Pipeline.Clip.ok_of (hstart0_5 i a))).WholeWords (EltTy.packing .f32)
  hwxs0_5 : ∀ i : grid0.Coords, EltTy.bits .f32 = 32 ∨ (Rect.unit (s := S240x128) (fun _ => 0) (fun a => (Pipeline.Clip.of (cc0_transform_5 i a) (S240x128.size a) (S10000x128.size a)).extent (S240x128.size a)) fun a => (Nat.zero_add _).trans_le (Pipeline.Clip.extent_le (Pipeline.Clip.ok_of (hstart0_5 i a)))).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S240x10000_S10000x128_S240x128_1_0_0_1_n_n : DotDims S240x10000 S10000x128 S240x128 where
  lhsContracting := [1]
  rhsContracting := [0]
  lhsNonContracting := [0]
  rhsNonContracting := [1]
  lhsBatch := []
  rhsBatch := []
  wf := dot_S240x10000_S10000x128_S240x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S240x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v2) S240x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x10000x10000 : Shape := ⟨3, ![1, 10000, 10000]⟩
abbrev S1x10000x128 : Shape := ⟨3, ![1, 10000, 128]⟩
abbrev S1x1x128 : Shape := ⟨3, ![1, 1, 128]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128x128, .f32⟩
  | .hbm, ⟨6, _⟩ => ⟨S10000x128, .f32⟩
  | .hbm, ⟨7, _⟩ => ⟨S1x10000x10000, .f32⟩
  | .hbm, ⟨8, _⟩ => ⟨S1x10000x128, .f32⟩
  | .hbm, ⟨9, _⟩ => ⟨S1x10000x128, .f32⟩
  | .hbm, ⟨10, _⟩ => ⟨S1x1x128, .f32⟩
  | .hbm, ⟨11, _⟩ => ⟨S1x10000x128, .f32⟩
  | .hbm, ⟨12, _⟩ => ⟨S1x10000x128, .f32⟩
  | .hbm, ⟨13, _⟩ => ⟨S_, .f32⟩
  | .hbm, ⟨14, _⟩ => ⟨S1x10000x128, .f32⟩
  | .hbm, ⟨15, _⟩ => ⟨S1x10000x128, .i1⟩
  | .hbm, ⟨16, _⟩ => ⟨S1x10000x128, .f32⟩
  | .hbm, ⟨17, _⟩ => ⟨S1x10000x128, .f32⟩
  | .hbm, ⟨18, _⟩ => ⟨S1x10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  transposes_S128x128_S128x128_1_0 : S128x128.Transposes [1, 0] S128x128
  bcast_S10000x10000_S1x10000x10000_1_2 : S10000x10000.BroadcastsInDim S1x10000x10000 (![1, 2] : Fin 2 → Fin S1x10000x10000.rank)
  bcast_S10000x128_S1x10000x128_1_2 : S10000x128.BroadcastsInDim S1x10000x128 (![1, 2] : Fin 2 → Fin S1x10000x128.rank)
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  dot_S10000x128_S128x128_S10000x128_1_0_0_1_n_n_wf : DotDims.WF S10000x128 S128x128 S10000x128 [1] [0] [0] [1] [] []
  dot_S1x10000x10000_S1x10000x128_S1x10000x128_2_1_1_2_0_0_wf : DotDims.WF S1x10000x10000 S1x10000x128 S1x10000x128 [2] [1] [1] [2] [0] [0]

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.BitsBody.lean ====
import proofs.«150342_g738734375061_bridgefix_242_20_alg».proof.Proof.Gen.Kernel.Frame
import proofs.«150342_g738734375061_bridgefix_242_20_alg».proof.Proof.Gen.Kernel.Skeleton
import Idealize.ShloMosaic.Lib.Pipeline.Value

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body on any whole staging memrefs

The body has one conditional, on the grid coordinate alone: at the first grid point it forms the projection
`seq · Wᵀ` and stores it whole into the scratch; at every point it then multiplies the point's stripe of `adj`
by the scratch, adds the bias row and applies the leaky rectifier, and stores the whole output block. -/

/-- The conditional's test as the body computes it from the grid coordinate: it holds exactly at coordinate 0. -/
abbrev firstPt (i : grid0.Coords) : Prop := (Scalar.cmpi .ne (Scalar.extui (Scalar.cmpi .eq (BitVec.ofNat 32 (i 0).val) 0#32)) 0#32) = 1#1

/-- The zero offsets of every access of the body, spelt as the constant function. -/
theorem off_zero : (![0, 0] : Fin 2 → Nat) = fun _ => 0 := funext fun a => by fin_cases a <;> rfl

/-- One whole-shape store at zero offsets into a buffer read through any view leaves its payload, whatever the
    buffer held: the store's rectangle is the whole shape. -/
theorem read_writes_unit_zero {sig' : RefSig} {κ' : Kind} {sp' : Space} {S : Shape} {e : EltTy} {Val : EltTy → Type} [∀ e, Nonempty (Val e)]
    (v : View sig' κ' sp' S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩), View.canon_unit_zero h]

/-- At a point after the first the scratch already holds some projection `xs`: the body leaves every input buffer
    and the scratch as they were and the output buffer at the block payload of the stripe `x2`, `xs`, the bias row
    `x3` and the slope `x4`. -/
theorem run_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S240x10000 .f32) (harg3 : arg3.IsWhole) (arg4 : Memref sig .tc .vmem S1x128 .f32) (harg4 : arg4.IsWhole)
    (arg5 : Memref sig .tc .vmem S1x1 .f32) (harg5 : arg5.IsWhole) (arg6 : Memref sig .tc .vmem S240x128 .f32) (harg6 : arg6.IsWhole)
    (arg7 : Memref sig .tc .vmem S10000x128 .f32) (harg7 : arg7.IsWhole) (hc : ¬firstPt i)
    (x0 : Vec F S10000x128 .f32) (x1 : Vec F S128x128 .f32) (x2 : Vec F S240x10000 .f32) (x3 : Vec F S1x128 .f32) (x4 : Vec F S1x1 .f32)
    (xs : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x2 xs x3 x4) ∗ owns (c : Thread nD τ) arg7 fullShare xs) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf7
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_writes_unit_zero _ _ off_zero]
    simp only [View.readAt_eq_ld, harg3.read_unread, harg7.read_unread, harg4.read_unread, harg5.read_unread,
      View.ld_unit_zero (S := S240x10000) off_zero, View.ld_unit_zero (S := S10000x128) off_zero,
      View.ld_unit_zero (S := S1x128) off_zero, View.ld_unit_zero (S := S1x1) off_zero]
  · iexists _; isplitr; · ipureintro; exact hf7
    iexact H7

/-- At the first point the scratch holds anything: the body stores the projection payload of `x0` and `x1` into
    it, reads it back, and leaves the output buffer at the block payload over that projection. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S240x10000 .f32) (harg3 : arg3.IsWhole) (arg4 : Memref sig .tc .vmem S1x128 .f32) (harg4 : arg4.IsWhole)
    (arg5 : Memref sig .tc .vmem S1x1 .f32) (harg5 : arg5.IsWhole) (arg6 : Memref sig .tc .vmem S240x128 .f32) (harg6 : arg6.IsWhole)
    (arg7 : Memref sig .tc .vmem S10000x128 .f32) (harg7 : arg7.IsWhole) (hc : firstPt i)
    (x0 : Vec F S10000x128 .f32) (x1 : Vec F S128x128 .f32) (x2 : Vec F S240x10000 .f32) (x3 : Vec F S1x128 .f32) (x4 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x2 (k0_pay1 x0 x1) x3 x4) ∗ owns (c : Thread nD τ) arg7 fullShare (k0_pay1 x0 x1)) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f7, -, H7⟩, Hk⟩
  obtain rfl := harg1.eq_unread hf0; obtain rfl := harg2.eq_unread hf1; obtain rfl := harg3.eq_unread hf2
  obtain rfl := harg4.eq_unread hf3; obtain rfl := harg5.eq_unread hf4
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [read_writes_unit_zero _ _ off_zero]
    simp only [View.readAt_eq_ld, harg1.read_unread, harg2.read_unread, harg3.read_unread, harg4.read_unread, harg5.read_unread,
      View.ld_unit_zero (S := S240x10000) off_zero, View.ld_unit_zero (S := S10000x128) off_zero,
      View.ld_unit_zero (S := S128x128) off_zero,
      View.ld_unit_zero (S := S1x128) off_zero, View.ld_unit_zero (S := S1x1) off_zero,
      View.readCov_unit_zero (S := S10000x128) _ off_zero]
  · iexists _; isplitr
    swap; · iexact H7
    ipureintro
    sl_unfold_words
    rw [read_writes_unit_zero _ _ off_zero]
    simp only [View.readAt_eq_ld, harg1.read_unread, harg2.read_unread,
      View.ld_unit_zero (S := S10000x128) off_zero, View.ld_unit_zero (S := S128x128) off_zero]

end Cert.Kernel.Body

end
-- ==== Proof.BitsData.lean ====
import proofs.«150342_g738734375061_bridgefix_242_20_alg».proof.Proof.BitsBody
import proofs.«150342_g738734375061_bridgefix_242_20_alg».proof.Proof.Gen.Kernel.Points

/-!
# The proof data of the one pipelined region, and its body obligation

The region's six windows: `seq`, `W`, the bias row and the slope are whole-array blocks fetched once and never
written by the body; the stripe of `adj` at grid point `t` is rows `240·t …` of the array, the last one cut at
the array's end (its staging buffer holds words nothing names on the rows past the end); the output block is
written back at every point, cut the same way. The scratch holds anything before the first point and the
projection `seq · Wᵀ` (the body's payload over the two whole-array blocks at point 0) after every point.
-/

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, and the scratch -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S240x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S240x128 .f32 := win0_5.stage (cfg0.slots t 5)
abbrev hs5 (t : Fin cfg0.N) : (ms5 t).IsWhole := hstage0_5 ((cfg0.slots t 5).cast nbuf0_5)
/-- The scratch the body carries between points. -/
abbrev scM : Memref sig .tc .vmem S10000x128 .f32 := Memref.whole cc0_scratch0

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The blocks, at their literal types -/

/-- The first grid point. -/
abbrev t₀ : Fin cfg0.N := ⟨0, by decide⟩

/-- The whole-array blocks of `seq`, `W`, the bias row and the slope at point `t`. -/
abbrev seqB (c : Dev nD) (t : Fin cfg0.N) : Vec F S10000x128 .f32 := iblk m c 0 t
abbrev wB (c : Dev nD) (t : Fin cfg0.N) : Vec F S128x128 .f32 := iblk m c 1 t
abbrev biasB (c : Dev nD) (t : Fin cfg0.N) : Vec F S1x128 .f32 := iblk m c 3 t
abbrev slopeB (c : Dev nD) (t : Fin cfg0.N) : Vec F S1x1 .f32 := iblk m c 4 t
/-- The stripe of `adj` at point `t` as a full 240-row block: its rows inside the array, and the zero word on the
    rows past the array's end (at the last point), which nothing proved below reads. -/
def adjB (c : Dev nD) (t : Fin cfg0.N) : Vec F S240x10000 .f32 :=
  win0_2.fill (grid0.coords t) (fun _ => Scalar.ofBits .f32 0#32) (iblk m c 2 t)
/-- The projection `seq · Wᵀ` as the body forms it at the first point. -/
def projB (c : Dev nD) : Vec F S10000x128 .f32 := k0_pay1 (seqB m c t₀) (wB m c t₀)
/-- The output block at point `t`: the body's payload over that stripe, the projection, the bias row and the slope. -/
def outB (c : Dev nD) (t : Fin cfg0.N) : Vec F S240x128 .f32 := k0_pay2 (adjB m c t) (projB m c) (biasB m c t) (slopeB m c t)

/-! ## The invariant and the proof data -/

/-- Before the first point the scratch holds anything; afterwards the projection. -/
def PhiS (c : Dev nD) : ℕ → sProp 𝕄
  | 0 => Pipeline.ΦA spec0 c
  | _ + 1 => iprop(owns (c : Thread nD τ) scM fullShare (projB m c) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjB m c t
    | ⟨3, _⟩ => iblk m c 3 t
    | ⟨4, _⟩ => iblk m c 4 t
    | ⟨5, _⟩ => outB m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = adjB m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outB m c t := by dsimp only [dats]

/-! ## What the body finds in each window's buffer -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
/-- The stripe is fetched at every point: the buffer holds it on the rows inside the array and `d` past them. -/
theorem before_2 (c : Dev nD) (t : Fin cfg0.N) (d) :
    (dats m 0 c).before 2 t d = win0_2.fill (grid0.coords t) d (iblk m c 2 t) := by
  unfold Dat.before; rw [if_pos (fetch0_2 t)]; rfl

/-! ## The body obligation, the output block's contents left unnamed

At the word-level instance the matrix product is not known row by row, so what the body computes from the cut
stripe's unnamed rows cannot be named in advance: this form of the obligation hands the output window's buffer to
the body at anything and takes it back at anything. It is all a claim that does not read the output needs. -/

/-- The output window alone is left unnamed. -/
abbrev fgt5 : Fin 6 → Bool := fun | 0 => false | 1 => false | 2 => false | 3 => false | 4 => false | 5 => true | ⟨_ + 6, h⟩ => absurd h (Nat.not_lt.2 (Nat.le_add_left _ _))

/-- The body's conditional is taken at the first grid point and nowhere else. -/
theorem hfirst : ∀ t : Fin cfg0.N, firstPt (grid0.coords t) ↔ t.val = 0 :=
  (by decide +kernel : ∀ t : Fin grid0.N, firstPt (grid0.coords t) ↔ t.val = 0)

/-- The invariant after any point. -/
theorem Phi_succ (c : Dev nD) (t : Fin cfg0.N) :
    (dats m 0 c).Φ t.succ = iprop(owns (c : Thread nD τ) scM fullShare (projB m c) ∗ (∃ r, prngReg c r)) := rfl
/-- The invariant before the first point. -/
theorem Phi_first (c : Dev nD) : (dats m 0 c).Φ (Fin.castSucc t₀) = Pipeline.ΦA spec0 c := rfl
/-- The invariant before any later point. -/
theorem Phi_later (c : Dev nD) (t : Fin cfg0.N) (h0 : t.val ≠ 0) :
    (dats m 0 c).Φ t.castSucc = iprop(owns (c : Thread nD τ) scM fullShare (projB m c) ∗ (∃ r, prngReg c r)) := by
  obtain ⟨n, hn⟩ := Nat.exists_eq_succ_of_ne_zero h0
  show PhiS m c t.val = _
  rw [hn]; rfl

theorem body_obligation_fgt (c : Dev nD) :
    BodyObligationLoose (dats m 0 c) (defs₀ (F := F)) Variants.none () Set.univ fgt5 := fun t => by
  rw [bigSep_W0, bigSep_W0]
  simp only
  rw [show (dats m 0 c).owesAt () t.succ = (dats m 0 c).owesAt () t.castSucc from rfl, Phi_succ]
  simp only [before_0 m c t, before_1 m c t, before_2 m c t, before_3 m c t, before_4 m c t,
    after_0, after_1, after_2, after_3, after_4]
  by_cases h0 : t.val = 0
  · obtain rfl : t = t₀ := Fin.ext h0
    rw [Phi_first, PhiA_eq]
    iintro ⟨⟨⟨%ds, HS⟩, Hg⟩, Ho, ⟨%d0, H0⟩, ⟨%d1, H1⟩, ⟨%d2, H2⟩, ⟨%d3, H3⟩, ⟨%d4, H4⟩, ⟨%X5, H5⟩⟩
    iapply (run_first c (grid0.coords t₀) (ms0 t₀) (hs0 t₀) (ms1 t₀) (hs1 t₀) (ms2 t₀) (hs2 t₀) (ms3 t₀) (hs3 t₀) (ms4 t₀) (hs4 t₀)
      (ms5 t₀) (hs5 t₀) scM (Memref.isWhole_whole _) ((hfirst t₀).mpr rfl) (seqB m c t₀) (wB m c t₀)
      (win0_2.fill (grid0.coords t₀) d2 (iblk m c 2 t₀)) (biasB m c t₀) (slopeB m c t₀) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]
    · iexists d2
      rw [show (win0 2).cut (grid0.coords t₀) (adjB m c t₀) = iblk m c 2 t₀ from win0_2.cut_fill _ _ _]
      iexact H2
    isplitl [H3]; · iexact H3
    isplitl [H4]; · iexact H4
    iexists _; iexact H5
  · rw [Phi_later m c t h0]
    iintro ⟨⟨HS, Hg⟩, Ho, ⟨%d0, H0⟩, ⟨%d1, H1⟩, ⟨%d2, H2⟩, ⟨%d3, H3⟩, ⟨%d4, H4⟩, ⟨%X5, H5⟩⟩
    iapply (run_later c (grid0.coords t) (ms0 t) (hs0 t) (ms1 t) (hs1 t) (ms2 t) (hs2 t) (ms3 t) (hs3 t) (ms4 t) (hs4 t)
      (ms5 t) (hs5 t) scM (Memref.isWhole_whole _) (fun h => h0 ((hfirst t).mp h)) (seqB m c t) (wB m c t)
      (win0_2.fill (grid0.coords t) d2 (iblk m c 2 t)) (biasB m c t) (slopeB m c t) (projB m c) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]
    · iexists d2
      rw [show (win0 2).cut (grid0.coords t) (adjB m c t) = iblk m c 2 t from win0_2.cut_fill _ _ _]
      iexact H2
    isplitl [H3]; · iexact H3
    isplitl [H4]; · iexact H4
    iexists _; iexact H5

/-! ## The run and the frame

The launch hands the region the class invariant, which is the invariant before the first point; after the last
point the scratch's named contents are forgotten again. The host line after the region writes only its own result
buffer. The frame reads the argument arrays off the run's post: the three staged inputs hold their entry contents,
the bias vector and the slope bypass the region and the later line. -/

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = iprop(owns (c : Thread nD τ) scM fullShare (projB m c) ∗ (∃ r, prngReg c r)) from rfl, PhiA_eq]
  iintro ⟨HS, Hg⟩
  isplitl [HS]
  · iexists _; iexact HS
  iexact Hg

/-- What the host line after the region writes. -/
abbrev tailW : Finset (Ref sig .tc) := {main_v3}

theorem sfx_T : ∀ ops ∈ ([hostOps1] : List (List (HloOp τ sig (Elt F)))), ∀ op ∈ ops,
    ∀ b : Ref sig .tc, Proc.devRef .tc b ∈ op.writes → b ∈ tailW := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  exact Finset.mem_singleton.mpr (Proc.devRef_injective _ hb)

set_option backward.isDefEq.respectTransparency.types false in
/-- Every weakly fair execution of @main terminates; every input array of the pipeline ends at its entry contents,
    nothing is said of the output array, and every buffer that bypasses the region and is not written by the later
    line ends at its entry contents. -/
theorem run_frame : θ_run defs (onTc (τ := τ) (main (F := F))) (s₀ m ρ)
    (Pipeline.RDat.FramePostR (cfgs 0) (fun c => (dats m 0 c).toRForget fgt5) tailW (fun c b => V0 m c (Proc.devRef .tc b))) :=
  Pipeline.RDat.θ_run_frame_around_T_track cfgs (0 : Fin 1) launch0 defs₀ Variants.none (fun c => (dats m 0 c).toRForget fgt5) tailW m ρ main
    (hbody := fun c => (body_obligation_fgt m c).toRForget) (hshare := fun c => ((dats m 0 c).toRForget fgt5).share_full fun _ => rfl)
    (howed := fun _ _ => rfl) (V₀ := V0 m) (opss := [hostOps1]) (hsub := sfx_sub) (hfresh := sfx_fresh) (hkeep := sfx_keeps) (hT := sfx_T)
    (hmain := hmain m Variants.none) (hA := A_eq m) (hin := hin m) (hout := hout m)

/-- The frame, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(Pipeline.RDat.FramePostR.arr_in h c 0 rfl).trans ((A_eq m c 0).trans (V_main_arg0 m c)),
     (Pipeline.RDat.FramePostR.arr_in h c 2 rfl).trans ((A_eq m c 2).trans (V_main_arg1 m c)),
     (Pipeline.RDat.FramePostR.arr_in h c 1 rfl).trans ((A_eq m c 1).trans (V_main_arg2 m c)),
     ((h c).2 main_arg3 (Finset.mem_sdiff.mpr ⟨Pipeline.mem_restRefs_of main_arg3 (by decide) (by decide),
        fun hm => absurd (Finset.mem_singleton.mp hm) (by decide)⟩)).trans (V_main_arg3 m c),
     ((h c).2 main_arg4 (Finset.mem_sdiff.mpr ⟨Pipeline.mem_restRefs_of main_arg4 (by decide) (by decide),
        fun hm => absurd (Finset.mem_singleton.mp hm) (by decide)⟩)).trans (V_main_arg4 m c)⟩) (run_frame m ρ)

end Cert.Kernel.Body

end
-- ==== Proof.IdealBody.lean ====
import proofs.«150342_g738734375061_bridgefix_242_20_alg».proof.Proof.Gen.KernelIdeal.Frame
import proofs.«150342_g738734375061_bridgefix_242_20_alg».proof.Proof.Gen.KernelIdeal.Skeleton
import Idealize.ShloMosaic.Lib.Pipeline.Value

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body on any whole staging memrefs

The body has one conditional, on the grid coordinate alone: at the first grid point it forms the projection
`seq · Wᵀ` and stores it whole into the scratch; at every point it then multiplies the point's stripe of `adj`
by the scratch, adds the bias row and applies the leaky rectifier, and stores the whole output block. -/

/-- The conditional's test as the body computes it from the grid coordinate: it holds exactly at coordinate 0. -/
abbrev firstPt (i : grid0.Coords) : Prop := (Scalar.cmpi .ne (Scalar.extui (Scalar.cmpi .eq (BitVec.ofNat 32 (i 0).val) 0#32)) 0#32) = 1#1

/-- The zero offsets of every access of the body, spelt as the constant function. -/
theorem off_zero : (![0, 0] : Fin 2 → Nat) = fun _ => 0 := funext fun a => by fin_cases a <;> rfl

/-- One whole-shape store at zero offsets into a buffer read through any view leaves its payload, whatever the
    buffer held: the store's rectangle is the whole shape. -/
theorem read_writes_unit_zero {sig' : RefSig} {κ' : Kind} {sp' : Space} {S : Shape} {e : EltTy} {Val : EltTy → Type} [∀ e, Nonempty (Val e)]
    (v : View sig' κ' sp' S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩), View.canon_unit_zero h]

/-- At a point after the first the scratch already holds some projection `xs`: the body leaves every input buffer
    and the scratch as they were and the output buffer at the block payload of the stripe `x2`, `xs`, the bias row
    `x3` and the slope `x4`. -/
theorem run_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S240x10000 .f32) (harg3 : arg3.IsWhole) (arg4 : Memref sig .tc .vmem S1x128 .f32) (harg4 : arg4.IsWhole)
    (arg5 : Memref sig .tc .vmem S1x1 .f32) (harg5 : arg5.IsWhole) (arg6 : Memref sig .tc .vmem S240x128 .f32) (harg6 : arg6.IsWhole)
    (arg7 : Memref sig .tc .vmem S10000x128 .f32) (harg7 : arg7.IsWhole) (hc : ¬firstPt i)
    (x0 : Vec F S10000x128 .f32) (x1 : Vec F S128x128 .f32) (x2 : Vec F S240x10000 .f32) (x3 : Vec F S1x128 .f32) (x4 : Vec F S1x1 .f32)
    (xs : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x2 xs x3 x4) ∗ owns (c : Thread nD τ) arg7 fullShare xs) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf7
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_writes_unit_zero _ _ off_zero]
    simp only [View.readAt_eq_ld, harg3.read_unread, harg7.read_unread, harg4.read_unread, harg5.read_unread,
      View.ld_unit_zero (S := S240x10000) off_zero, View.ld_unit_zero (S := S10000x128) off_zero,
      View.ld_unit_zero (S := S1x128) off_zero, View.ld_unit_zero (S := S1x1) off_zero]
  · iexists _; isplitr; · ipureintro; exact hf7
    iexact H7

/-- At the first point the scratch holds anything: the body stores the projection payload of `x0` and `x1` into
    it, reads it back, and leaves the output buffer at the block payload over that projection. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S240x10000 .f32) (harg3 : arg3.IsWhole) (arg4 : Memref sig .tc .vmem S1x128 .f32) (harg4 : arg4.IsWhole)
    (arg5 : Memref sig .tc .vmem S1x1 .f32) (harg5 : arg5.IsWhole) (arg6 : Memref sig .tc .vmem S240x128 .f32) (harg6 : arg6.IsWhole)
    (arg7 : Memref sig .tc .vmem S10000x128 .f32) (harg7 : arg7.IsWhole) (hc : firstPt i)
    (x0 : Vec F S10000x128 .f32) (x1 : Vec F S128x128 .f32) (x2 : Vec F S240x10000 .f32) (x3 : Vec F S1x128 .f32) (x4 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x2 (k0_pay1 x0 x1) x3 x4) ∗ owns (c : Thread nD τ) arg7 fullShare (k0_pay1 x0 x1)) -∗ K ⟨⟩))
      ⊢ wp frame (wpE (defs₀ (F := F)) Variants.none c none) E (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f7, -, H7⟩, Hk⟩
  obtain rfl := harg1.eq_unread hf0; obtain rfl := harg2.eq_unread hf1; obtain rfl := harg3.eq_unread hf2
  obtain rfl := harg4.eq_unread hf3; obtain rfl := harg5.eq_unread hf4
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [read_writes_unit_zero _ _ off_zero]
    simp only [View.readAt_eq_ld, harg1.read_unread, harg2.read_unread, harg3.read_unread, harg4.read_unread, harg5.read_unread,
      View.ld_unit_zero (S := S240x10000) off_zero, View.ld_unit_zero (S := S10000x128) off_zero,
      View.ld_unit_zero (S := S128x128) off_zero,
      View.ld_unit_zero (S := S1x128) off_zero, View.ld_unit_zero (S := S1x1) off_zero,
      View.readCov_unit_zero (S := S10000x128) _ off_zero]
  · iexists _; isplitr
    swap; · iexact H7
    ipureintro
    sl_unfold_words
    rw [read_writes_unit_zero _ _ off_zero]
    simp only [View.readAt_eq_ld, harg1.read_unread, harg2.read_unread,
      View.ld_unit_zero (S := S10000x128) off_zero, View.ld_unit_zero (S := S128x128) off_zero]

end Cert.KernelIdeal.Body

end
-- ==== Proof.IdealData.lean ====
import proofs.«150342_g738734375061_bridgefix_242_20_alg».proof.Proof.IdealBody
import proofs.«150342_g738734375061_bridgefix_242_20_alg».proof.Proof.Gen.KernelIdeal.Points

/-!
# The proof data of the one pipelined region, and its body obligation

The region's six windows: `seq`, `W`, the bias row and the slope are whole-array blocks fetched once and never
written by the body; the stripe of `adj` at grid point `t` is rows `240·t …` of the array, the last one cut at
the array's end (its staging buffer holds words nothing names on the rows past the end); the output block is
written back at every point, cut the same way. The scratch holds anything before the first point and the
projection `seq · Wᵀ` (the body's payload over the two whole-array blocks at point 0) after every point.
-/

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, and the scratch -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S240x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S240x128 .f32 := win0_5.stage (cfg0.slots t 5)
abbrev hs5 (t : Fin cfg0.N) : (ms5 t).IsWhole := hstage0_5 ((cfg0.slots t 5).cast nbuf0_5)
/-- The scratch the body carries between points. -/
abbrev scM : Memref sig .tc .vmem S10000x128 .f32 := Memref.whole cc0_scratch0

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The blocks, at their literal types -/

/-- The first grid point. -/
abbrev t₀ : Fin cfg0.N := ⟨0, by decide⟩

/-- The whole-array blocks of `seq`, `W`, the bias row and the slope at point `t`. -/
abbrev seqB (c : Dev nD) (t : Fin cfg0.N) : Vec F S10000x128 .f32 := iblk m c 0 t
abbrev wB (c : Dev nD) (t : Fin cfg0.N) : Vec F S128x128 .f32 := iblk m c 1 t
abbrev biasB (c : Dev nD) (t : Fin cfg0.N) : Vec F S1x128 .f32 := iblk m c 3 t
abbrev slopeB (c : Dev nD) (t : Fin cfg0.N) : Vec F S1x1 .f32 := iblk m c 4 t
/-- The stripe of `adj` at point `t` as a full 240-row block: its rows inside the array, and the zero word on the
    rows past the array's end (at the last point), which nothing proved below reads. -/
def adjB (c : Dev nD) (t : Fin cfg0.N) : Vec F S240x10000 .f32 :=
  win0_2.fill (grid0.coords t) (fun _ => Scalar.ofBits .f32 0#32) (iblk m c 2 t)
/-- The projection `seq · Wᵀ` as the body forms it at the first point. -/
def projB (c : Dev nD) : Vec F S10000x128 .f32 := k0_pay1 (seqB m c t₀) (wB m c t₀)
/-- The output block at point `t`: the body's payload over that stripe, the projection, the bias row and the slope. -/
def outB (c : Dev nD) (t : Fin cfg0.N) : Vec F S240x128 .f32 := k0_pay2 (adjB m c t) (projB m c) (biasB m c t) (slopeB m c t)

/-! ## The invariant and the proof data -/

/-- Before the first point the scratch holds anything; afterwards the projection. -/
def PhiS (c : Dev nD) : ℕ → sProp 𝕄
  | 0 => Pipeline.ΦA spec0 c
  | _ + 1 => iprop(owns (c : Thread nD τ) scM fullShare (projB m c) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjB m c t
    | ⟨3, _⟩ => iblk m c 3 t
    | ⟨4, _⟩ => iblk m c 4 t
    | ⟨5, _⟩ => outB m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = adjB m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outB m c t := by dsimp only [dats]

/-! ## What the body finds in each window's buffer -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
/-- The stripe is fetched at every point: the buffer holds it on the rows inside the array and `d` past them. -/
theorem before_2 (c : Dev nD) (t : Fin cfg0.N) (d) :
    (dats m 0 c).before 2 t d = win0_2.fill (grid0.coords t) d (iblk m c 2 t) := by
  unfold Dat.before; rw [if_pos (fetch0_2 t)]; rfl

/-! ## The body obligation, the output block's contents left unnamed

At the word-level instance the matrix product is not known row by row, so what the body computes from the cut
stripe's unnamed rows cannot be named in advance: this form of the obligation hands the output window's buffer to
the body at anything and takes it back at anything. It is all a claim that does not read the output needs. -/

/-- The output window alone is left unnamed. -/
abbrev fgt5 : Fin 6 → Bool := fun | 0 => false | 1 => false | 2 => false | 3 => false | 4 => false | 5 => true | ⟨_ + 6, h⟩ => absurd h (Nat.not_lt.2 (Nat.le_add_left _ _))

/-- The body's conditional is taken at the first grid point and nowhere else. -/
theorem hfirst : ∀ t : Fin cfg0.N, firstPt (grid0.coords t) ↔ t.val = 0 :=
  (by decide +kernel : ∀ t : Fin grid0.N, firstPt (grid0.coords t) ↔ t.val = 0)

/-- The invariant after any point. -/
theorem Phi_succ (c : Dev nD) (t : Fin cfg0.N) :
    (dats m 0 c).Φ t.succ = iprop(owns (c : Thread nD τ) scM fullShare (projB m c) ∗ (∃ r, prngReg c r)) := rfl
/-- The invariant before the first point. -/
theorem Phi_first (c : Dev nD) : (dats m 0 c).Φ (Fin.castSucc t₀) = Pipeline.ΦA spec0 c := rfl
/-- The invariant before any later point. -/
theorem Phi_later (c : Dev nD) (t : Fin cfg0.N) (h0 : t.val ≠ 0) :
    (dats m 0 c).Φ t.castSucc = iprop(owns (c : Thread nD τ) scM fullShare (projB m c) ∗ (∃ r, prngReg c r)) := by
  obtain ⟨n, hn⟩ := Nat.exists_eq_succ_of_ne_zero h0
  show PhiS m c t.val = _
  rw [hn]; rfl

theorem body_obligation_fgt (c : Dev nD) :
    BodyObligationLoose (dats m 0 c) (defs₀ (F := F)) Variants.none () Set.univ fgt5 := fun t => by
  rw [bigSep_W0, bigSep_W0]
  simp only
  rw [show (dats m 0 c).owesAt () t.succ = (dats m 0 c).owesAt () t.castSucc from rfl, Phi_succ]
  simp only [before_0 m c t, before_1 m c t, before_2 m c t, before_3 m c t, before_4 m c t,
    after_0, after_1, after_2, after_3, after_4]
  by_cases h0 : t.val = 0
  · obtain rfl : t = t₀ := Fin.ext h0
    rw [Phi_first, PhiA_eq]
    iintro ⟨⟨⟨%ds, HS⟩, Hg⟩, Ho, ⟨%d0, H0⟩, ⟨%d1, H1⟩, ⟨%d2, H2⟩, ⟨%d3, H3⟩, ⟨%d4, H4⟩, ⟨%X5, H5⟩⟩
    iapply (run_first c (grid0.coords t₀) (ms0 t₀) (hs0 t₀) (ms1 t₀) (hs1 t₀) (ms2 t₀) (hs2 t₀) (ms3 t₀) (hs3 t₀) (ms4 t₀) (hs4 t₀)
      (ms5 t₀) (hs5 t₀) scM (Memref.isWhole_whole _) ((hfirst t₀).mpr rfl) (seqB m c t₀) (wB m c t₀)
      (win0_2.fill (grid0.coords t₀) d2 (iblk m c 2 t₀)) (biasB m c t₀) (slopeB m c t₀) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]
    · iexists d2
      rw [show (win0 2).cut (grid0.coords t₀) (adjB m c t₀) = iblk m c 2 t₀ from win0_2.cut_fill _ _ _]
      iexact H2
    isplitl [H3]; · iexact H3
    isplitl [H4]; · iexact H4
    iexists _; iexact H5
  · rw [Phi_later m c t h0]
    iintro ⟨⟨HS, Hg⟩, Ho, ⟨%d0, H0⟩, ⟨%d1, H1⟩, ⟨%d2, H2⟩, ⟨%d3, H3⟩, ⟨%d4, H4⟩, ⟨%X5, H5⟩⟩
    iapply (run_later c (grid0.coords t) (ms0 t) (hs0 t) (ms1 t) (hs1 t) (ms2 t) (hs2 t) (ms3 t) (hs3 t) (ms4 t) (hs4 t)
      (ms5 t) (hs5 t) scM (Memref.isWhole_whole _) (fun h => h0 ((hfirst t).mp h)) (seqB m c t) (wB m c t)
      (win0_2.fill (grid0.coords t) d2 (iblk m c 2 t)) (biasB m c t) (slopeB m c t) (projB m c) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]
    · iexists d2
      rw [show (win0 2).cut (grid0.coords t) (adjB m c t) = iblk m c 2 t from win0_2.cut_fill _ _ _]
      iexact H2
    isplitl [H3]; · iexact H3
    isplitl [H4]; · iexact H4
    iexists _; iexact H5

/-! ## The run and the frame

The launch hands the region the class invariant, which is the invariant before the first point; after the last
point the scratch's named contents are forgotten again. The host line after the region writes only its own result
buffer. The frame reads the argument arrays off the run's post: the three staged inputs hold their entry contents,
the bias vector and the slope bypass the region and the later line. -/

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = iprop(owns (c : Thread nD τ) scM fullShare (projB m c) ∗ (∃ r, prngReg c r)) from rfl, PhiA_eq]
  iintro ⟨HS, Hg⟩
  isplitl [HS]
  · iexists _; iexact HS
  iexact Hg

/-- What the host line after the region writes. -/
abbrev tailW : Finset (Ref sig .tc) := {main_v3}

theorem sfx_T : ∀ ops ∈ ([hostOps1] : List (List (HloOp τ sig (Elt F)))), ∀ op ∈ ops,
    ∀ b : Ref sig .tc, Proc.devRef .tc b ∈ op.writes → b ∈ tailW := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  exact Finset.mem_singleton.mpr (Proc.devRef_injective _ hb)

set_option backward.isDefEq.respectTransparency.types false in
/-- Every weakly fair execution of @main terminates; every input array of the pipeline ends at its entry contents,
    nothing is said of the output array, and every buffer that bypasses the region and is not written by the later
    line ends at its entry contents. -/
theorem run_frame : θ_run defs (onTc (τ := τ) (main (F := F))) (s₀ m ρ)
    (Pipeline.RDat.FramePostR (cfgs 0) (fun c => (dats m 0 c).toRForget fgt5) tailW (fun c b => V0 m c (Proc.devRef .tc b))) :=
  Pipeline.RDat.θ_run_frame_around_T_track cfgs (0 : Fin 1) launch0 defs₀ Variants.none (fun c => (dats m 0 c).toRForget fgt5) tailW m ρ main
    (hbody := fun c => (body_obligation_fgt m c).toRForget) (hshare := fun c => ((dats m 0 c).toRForget fgt5).share_full fun _ => rfl)
    (howed := fun _ _ => rfl) (V₀ := V0 m) (opss := [hostOps1]) (hsub := sfx_sub) (hfresh := sfx_fresh) (hkeep := sfx_keeps) (hT := sfx_T)
    (hmain := hmain m Variants.none) (hA := A_eq m) (hin := hin m) (hout := hout m)

/-- The frame, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(Pipeline.RDat.FramePostR.arr_in h c 0 rfl).trans ((A_eq m c 0).trans (V_main_arg0 m c)),
     (Pipeline.RDat.FramePostR.arr_in h c 2 rfl).trans ((A_eq m c 2).trans (V_main_arg1 m c)),
     (Pipeline.RDat.FramePostR.arr_in h c 1 rfl).trans ((A_eq m c 1).trans (V_main_arg2 m c)),
     ((h c).2 main_arg3 (Finset.mem_sdiff.mpr ⟨Pipeline.mem_restRefs_of main_arg3 (by decide) (by decide),
        fun hm => absurd (Finset.mem_singleton.mp hm) (by decide)⟩)).trans (V_main_arg3 m c),
     ((h c).2 main_arg4 (Finset.mem_sdiff.mpr ⟨Pipeline.mem_restRefs_of main_arg4 (by decide) (by decide),
        fun hm => absurd (Finset.mem_singleton.mp hm) (by decide)⟩)).trans (V_main_arg4 m c)⟩) (run_frame m ρ)

end Cert.KernelIdeal.Body

end
-- ==== Proof.Spec.lean ====
import Idealize.ShloMosaic.PureOps.Ideal
import Idealize.ShloMosaic.Lib.ValueIdx

/-!
# What both programs compute, index by index, over the extended reals

With `seq : [10000, 128]`, `adj : [10000, 10000]`, `W : [128, 128]`, `bias : [128]` and a scalar slope `a`:

* the projection `P j d = ∑ k, seq j k · W d k` (row `j` of `seq` against row `d` of `W`: `seq · Wᵀ`);
* the aggregate `o r d = (∑ j, adj r j · P j d) + bias d`;
* the leaky rectifier `act a o = o` where the comparison `o ≥ 0` holds and `a · o` where it does not — the
  comparison kept as the float comparison both programs apply, against the same zero word;
* the result `[1, 10000, 128]`, whose one leading coordinate is ignored: `out (_, r, d) = act a (o r d)`.

Nothing here needs finiteness: both programs form the same sums of the same products, so only the order of
summation could differ, and addition of extended reals is commutative and associative.
-/

noncomputable section

namespace Cert.GcnSpec

open Idealize.ShloMosaic Idealize.ShloMosaic.ValueIdx

/-- `P j d = ∑ k, seq j k · W d k`. -/
def proj (seq : FVec Ideal ⟨2, ![10000, 128]⟩ .f32) (W : FVec Ideal ⟨2, ![128, 128]⟩ .f32) (j : Fin 10000) (d : Fin 128) : Ideal .f32 :=
  ∑ k : Fin 128, seq (ix2 j k) * W (ix2 d k)

/-- `o r d = (∑ j, adj r j · P j d) + bias d`. -/
def agg (seq : FVec Ideal ⟨2, ![10000, 128]⟩ .f32) (adj : FVec Ideal ⟨2, ![10000, 10000]⟩ .f32) (W : FVec Ideal ⟨2, ![128, 128]⟩ .f32)
    (bias : FVec Ideal ⟨1, ![128]⟩ .f32) (r : Fin 10000) (d : Fin 128) : Ideal .f32 :=
  (∑ j : Fin 10000, adj (ix2 r j) * proj seq W j d) + bias (ix1 d)

/-- The leaky rectifier: `o` where `o ≥ 0` (the float comparison against the zero word), else `a · o`. -/
def act (a o : Ideal .f32) : Ideal .f32 :=
  Scalar.select (FloatOps.cmpf (F := Ideal) .oge o (FloatOps.ofBits (F := Ideal) .f32 0x00000000#32)) o (a * o)

/-- The `[10000, 128]` array the kernel region writes: `act a (o r d)`. -/
def out2 (seq : FVec Ideal ⟨2, ![10000, 128]⟩ .f32) (adj : FVec Ideal ⟨2, ![10000, 10000]⟩ .f32) (W : FVec Ideal ⟨2, ![128, 128]⟩ .f32)
    (bias : FVec Ideal ⟨1, ![128]⟩ .f32) (a : FVec Ideal ⟨0, ![]⟩ .f32) : FVec Ideal ⟨2, ![10000, 128]⟩ .f32 :=
  fun i => act (a ix0) (agg seq adj W bias (i 0) (i 1))

/-- The `[1, 10000, 128]` result of both programs. -/
def out3 (seq : FVec Ideal ⟨2, ![10000, 128]⟩ .f32) (adj : FVec Ideal ⟨2, ![10000, 10000]⟩ .f32) (W : FVec Ideal ⟨2, ![128, 128]⟩ .f32)
    (bias : FVec Ideal ⟨1, ![128]⟩ .f32) (a : FVec Ideal ⟨0, ![]⟩ .f32) : FVec Ideal ⟨3, ![1, 10000, 128]⟩ .f32 :=
  fun i => act (a ix0) (agg seq adj W bias (i 1) (i 2))

end Cert.GcnSpec

end
-- ==== Proof.Payload.lean ====
import proofs.«150342_g738734375061_bridgefix_242_20_alg».proof.Proof.Gen.KernelIdeal.Skeleton
import proofs.«150342_g738734375061_bridgefix_242_20_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The kernel's two stored values, read at an index, over the extended reals

* The projection step stores `P j d = ∑ k, x j k · w d k`: a contraction of the second axis of `x` with the second
  axis of `w` into a zero accumulator (so the accumulator contributes nothing), followed by a reshape to the same
  shape, which is the identity.
* The stripe step stores, for a block of 240 rows, the leaky rectifier of `(∑ j, X p j · S j d) + b 0 d`: a
  contraction of the second axis of `X` with the first axis of `S` into a zero accumulator; the bias row `[1,128]`
  repeated along the rows; the comparison against a zero scalar repeated everywhere; the slope taken from the one
  entry of a `[1,1]` array and repeated everywhere.

A one-axis contraction's index set is in bijection with the range of its one coordinate; re-indexing the sum through
that bijection and reading off, axis by axis, which coordinate of the output index or of the contraction index each
operand index carries gives the two sums in coordinates.
-/

noncomputable section

namespace Cert.KernelIdeal.Payload

open Cert.KernelIdeal Cert.KernelIdeal.Gen Idealize.ShloMosaic Idealize.ShloMosaic.ValueIdx

/-! ## The projection's contraction: second axis of `x` against second axis of `w` -/

/-- The left operand's row is the output's row. -/
theorem projL_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
/-- The left operand's column is the contraction coordinate. -/
theorem projL_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
/-- The right operand's row is the output's column. -/
theorem projR_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
/-- The right operand's column is the contraction coordinate. -/
theorem projR_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- `P j d = ∑ k, x j k · w d k`. -/
theorem pay1_apply (x : Vec Ideal S10000x128 .f32) (w : Vec Ideal S128x128 .f32) (j : Fin 10000) (d : Fin 128) :
    k0_pay1 (F := Ideal) x w (ix2 j d) = ∑ k : Fin 128, x (ix2 j k) * w (ix2 d k) := by
  unfold k0_pay1
  rw [shapeCast_self]
  simp only [matmul]
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 j d) ((contrEquiv1 dot_S10000x128_S128x128_S10000x128_1_1_0_0_n_n 128 rfl rfl).symm k) = ix2 j k := funext fun a => Fin.ext (by
    match a with
    | ⟨0, _⟩ => exact projL_0 _ _
    | ⟨1, _⟩ => exact (projL_1 _ _).trans hk)
  have er : dot_S10000x128_S128x128_S10000x128_1_1_0_0_n_n.rhsIdx (ix2 j d) ((contrEquiv1 dot_S10000x128_S128x128_S10000x128_1_1_0_0_n_n 128 rfl rfl).symm k) = ix2 d k := funext fun a => Fin.ext (by
    match a with
    | ⟨0, _⟩ => exact projR_0 _ _
    | ⟨1, _⟩ => exact (projR_1 _ _).trans hk)
  rw [el, er]

/-! ## The stripe's contraction: second axis of `X` against first axis of `S` -/

/-- The left operand's row is the output's row. -/
theorem aggL_0 (i : S240x128.Idx) (q : dot_S240x10000_S10000x128_S240x128_1_0_0_1_n_n.contr.Idx) :
    (dot_S240x10000_S10000x128_S240x128_1_0_0_1_n_n.lhsIdx i q 0).val = (i 0).val := by
  unfold DotDims.lhsIdx
  rw [dif_neg (show ¬(0 : Fin S240x10000.rank) ∈ dot_S240x10000_S10000x128_S240x128_1_0_0_1_n_n.lhsBatch by decide), dif_pos (show (0 : Fin S240x10000.rank) ∈ dot_S240x10000_S10000x128_S240x128_1_0_0_1_n_n.lhsNonContracting by decide)]
  rfl
/-- The left operand's column is the contraction coordinate. -/
theorem aggL_1 (i : S240x128.Idx) (q : dot_S240x10000_S10000x128_S240x128_1_0_0_1_n_n.contr.Idx) :
    (dot_S240x10000_S10000x128_S240x128_1_0_0_1_n_n.lhsIdx i q 1).val = (q ⟨0, by decide⟩).val :=
  dot_S240x10000_S10000x128_S240x128_1_0_0_1_n_n.lhsIdx_val_of_single rfl i q
/-- The right operand's row is the contraction coordinate. -/
theorem aggR_0 (i : S240x128.Idx) (q : dot_S240x10000_S10000x128_S240x128_1_0_0_1_n_n.contr.Idx) :
    (dot_S240x10000_S10000x128_S240x128_1_0_0_1_n_n.rhsIdx i q 0).val = (q ⟨0, by decide⟩).val :=
  dot_S240x10000_S10000x128_S240x128_1_0_0_1_n_n.rhsIdx_val_of_single rfl i q
/-- The right operand's column is the output's column. -/
theorem aggR_1 (i : S240x128.Idx) (q : dot_S240x10000_S10000x128_S240x128_1_0_0_1_n_n.contr.Idx) :
    (dot_S240x10000_S10000x128_S240x128_1_0_0_1_n_n.rhsIdx i q 1).val = (i 1).val := by
  unfold DotDims.rhsIdx
  rw [dif_neg (show ¬(1 : Fin S10000x128.rank) ∈ dot_S240x10000_S10000x128_S240x128_1_0_0_1_n_n.rhsBatch by decide), dif_pos (show (1 : Fin S10000x128.rank) ∈ dot_S240x10000_S10000x128_S240x128_1_0_0_1_n_n.rhsNonContracting by decide)]
  rfl

/-- The stripe's product into a zero accumulator: `∑ j, X p j · S j d`. -/
theorem stripe_apply (X : Vec Ideal S240x10000 .f32) (S : Vec Ideal S10000x128 .f32) (p : Fin 240) (d : Fin 128) :
    FloatOps.matmul (F := Ideal) (φ₁ := .f32) (φ₂ := .f32) dot_S240x10000_S10000x128_S240x128_1_0_0_1_n_n none X S (constant S240x128 .f32 0x00000000#32) (ix2 p d)
      = ∑ j : Fin 10000, X (ix2 p j) * S (ix2 j d) := by
  rw [Ideal.matmul_constant_zero_apply, ← Equiv.sum_comp (contrEquiv1 dot_S240x10000_S10000x128_S240x128_1_0_0_1_n_n 10000 rfl rfl).symm]
  refine Finset.sum_congr rfl fun k _ => ?_
  have hk := contrEquiv1_symm_val dot_S240x10000_S10000x128_S240x128_1_0_0_1_n_n 10000 rfl rfl k
  have el : dot_S240x10000_S10000x128_S240x128_1_0_0_1_n_n.lhsIdx (ix2 p d) ((contrEquiv1 dot_S240x10000_S10000x128_S240x128_1_0_0_1_n_n 10000 rfl rfl).symm k) = ix2 p k := funext fun a => Fin.ext (by
    match a with
    | ⟨0, _⟩ => exact aggL_0 _ _
    | ⟨1, _⟩ => exact (aggL_1 _ _).trans hk)
  have er : dot_S240x10000_S10000x128_S240x128_1_0_0_1_n_n.rhsIdx (ix2 p d) ((contrEquiv1 dot_S240x10000_S10000x128_S240x128_1_0_0_1_n_n 10000 rfl rfl).symm k) = ix2 k d := funext fun a => Fin.ext (by
    match a with
    | ⟨0, _⟩ => exact (aggR_0 _ _).trans hk
    | ⟨1, _⟩ => exact aggR_1 _ _)
  rw [el, er]

/-- The bias row repeated along the rows: entry `(p, d)` is `b 0 d`. -/
theorem bias_apply (b : Vec Ideal S1x128 .f32) (p : Fin 240) (d : Fin 128) :
    broadcastTo S240x128 (shapeCast S1x128 b shapeCasts_S1x128_S1x128) broadcasts_S1x128_S240x128 (ix2 p d)
      = b (ix2 (0 : Fin 1) d) := by
  rw [shapeCast_self]
  exact broadcastTo_apply b broadcasts_S1x128_S240x128 (ix2 p d) (ix2 (0 : Fin 1) d) (fun a => match a with
    | ⟨0, _⟩ => by show (0 : Nat) = if (1 : Nat) = 1 then 0 else p.val; rw [if_pos rfl]
    | ⟨1, _⟩ => by show d.val = if (128 : Nat) = 1 then 0 else d.val; rw [if_neg (by decide)])

/-- The one entry of a `[1,1]` array. -/
theorem slope_apply (a : Vec Ideal S1x1 .f32) :
    extractAt ![0, 0] a inpos_S1x1_p0_0 = a (ix2 (0 : Fin 1) (0 : Fin 1)) :=
  congrArg a (funext fun c => Fin.ext (by match c with | ⟨0, _⟩ => rfl | ⟨1, _⟩ => rfl))

/-- The stripe step's stored value at `(p, d)`: the leaky rectifier of `(∑ j, X p j · S j d) + b 0 d`. -/
theorem pay2_apply (X : Vec Ideal S240x10000 .f32) (S : Vec Ideal S10000x128 .f32) (b : Vec Ideal S1x128 .f32) (a : Vec Ideal S1x1 .f32)
    (p : Fin 240) (d : Fin 128) :
    k0_pay2 (F := Ideal) X S b a (ix2 p d)
      = Cert.GcnSpec.act (a (ix2 (0 : Fin 1) (0 : Fin 1))) ((∑ j : Fin 10000, X (ix2 p j) * S (ix2 j d)) + b (ix2 (0 : Fin 1) d)) := by
  unfold k0_pay2
  simp only [select_apply, mulf_apply, addf_apply, cmpf_apply, broadcast_apply, matmul]
  rw [stripe_apply, bias_apply, slope_apply]
  rfl

end Cert.KernelIdeal.Payload

end
-- ==== Proof.IdealExact.lean ====
import proofs.«150342_g738734375061_bridgefix_242_20_alg».proof.Proof.IdealData
import proofs.«150342_g738734375061_bridgefix_242_20_alg».proof.Proof.Payload

/-!
# The idealized program's run with every block named

Over the extended reals a row of the stripe's product depends on that row of the stripe alone: entry `(p, d)` of
the output block is the rectifier of `(∑ j, X p j · S j d) + b 0 d`. So the rows of the output block that the
write-back moves — those inside the array — do not depend on what the stripe's buffer holds on the rows past the
array's end, and the output block can be named: the body's payload over the stripe filled out with zeros.
-/

set_option maxRecDepth 16384

noncomputable section

namespace Cert.KernelIdeal.Body

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The output window is never fetched. -/
theorem fetch_5 : ∀ t : Fin cfg0.N, (cfg0.win 5).fetch t = false :=
  (by decide +kernel : ∀ t : Fin grid0.N, win0_5.fetch t = false)

/-- The output block is written back at every point, so the body always finds its buffer at contents nothing names. -/
theorem before_5 (c : Dev nD) (t : Fin cfg0.N) (d) : (dats m 0 c).before 5 t d = d := by
  unfold Dat.before
  rw [if_neg (by rw [fetch_5 t]; exact Bool.false_ne_true)]
  by_cases h0 : t.val = 0
  · rw [if_pos h0]
  · rw [if_neg h0]; exact if_pos (flush0_5 _)

/-- The stripe's and the output block's cuts agree on the row axis, and the stripe is never cut on its columns. -/
theorem xsize_rows : ∀ t : Fin cfg0.N, win0_5.xsize (grid0.coords t) 0 = win0_2.xsize (grid0.coords t) 0 :=
  (by decide +kernel : ∀ t : Fin grid0.N, win0_5.xsize (grid0.coords t) 0 = win0_2.xsize (grid0.coords t) 0)
theorem xsize_cols : ∀ t : Fin cfg0.N, win0_2.xsize (grid0.coords t) 1 = 10000 :=
  (by decide +kernel : ∀ t : Fin grid0.N, win0_2.xsize (grid0.coords t) 1 = 10000)

/-- The moved rows of the output block do not depend on the filler of the stripe's unmoved rows. -/
theorem cut_pay2_fill (t : Fin cfg0.N) (d d' : Vec Ideal S240x10000 .f32)
    (blk : (win0_2.xblock (grid0.coords t)).Idx → Ideal .f32)
    (S : Vec Ideal S10000x128 .f32) (b : Vec Ideal S1x128 .f32) (a : Vec Ideal S1x1 .f32) :
    win0_5.cut (grid0.coords t) (k0_pay2 (F := Ideal) (win0_2.fill (grid0.coords t) d blk) S b a)
      = win0_5.cut (grid0.coords t) (k0_pay2 (F := Ideal) (win0_2.fill (grid0.coords t) d' blk) S b a) := by
  funext j'
  show k0_pay2 (F := Ideal) _ S b a (win0_5.xinj (grid0.coords t) j') = k0_pay2 (F := Ideal) _ S b a (win0_5.xinj (grid0.coords t) j')
  have hp : (j' 0).val < 240 := Nat.lt_of_lt_of_le (j' 0).isLt (win0_5.xsize_le (grid0.coords t) 0)
  have hq : (j' 1).val < 128 := Nat.lt_of_lt_of_le (j' 1).isLt (win0_5.xsize_le (grid0.coords t) 1)
  have e : win0_5.xinj (grid0.coords t) j' = ix2 (⟨(j' 0).val, hp⟩ : Fin 240) (⟨(j' 1).val, hq⟩ : Fin 128) :=
    funext fun a => Fin.ext (by match a with | ⟨0, _⟩ => rfl | ⟨1, _⟩ => rfl)
  rw [e, Payload.pay2_apply, Payload.pay2_apply]
  congr 2
  refine Finset.sum_congr rfl fun j _ => ?_
  have hm : win0_2.moved (grid0.coords t) (ix2 (⟨(j' 0).val, hp⟩ : Fin 240) j) = true :=
    (win0_2.moved_iff (grid0.coords t) _).mpr fun a => by
      match a with
      | ⟨0, _⟩ => show (j' 0).val < win0_2.xsize (grid0.coords t) 0; rw [← xsize_rows t]; exact (j' 0).isLt
      | ⟨1, _⟩ => show j.val < win0_2.xsize (grid0.coords t) 1; rw [xsize_cols t]; exact j.isLt
  unfold Window.fill
  rw [dif_pos hm, dif_pos hm]

/-! ## The body obligation, every window named -/

theorem body_obligation (c : Dev nD) :
    BodyObligationLoose (dats m 0 c) (defs₀ (F := Ideal)) Variants.none () Set.univ := fun t => by
  rw [bigSep_W0, bigSep_W0]
  simp only
  rw [show (dats m 0 c).owesAt () t.succ = (dats m 0 c).owesAt () t.castSucc from rfl, Phi_succ]
  simp only [before_0 m c t, before_1 m c t, before_2 m c t, before_3 m c t, before_4 m c t, before_5 m c t,
    after_0, after_1, after_2, after_3, after_4, after_5]
  by_cases h0 : t.val = 0
  · obtain rfl : t = t₀ := Fin.ext h0
    rw [Phi_first, PhiA_eq]
    iintro ⟨⟨⟨%ds, HS⟩, Hg⟩, Ho, ⟨%d0, H0⟩, ⟨%d1, H1⟩, ⟨%d2, H2⟩, ⟨%d3, H3⟩, ⟨%d4, H4⟩, ⟨%X5, H5⟩⟩
    iapply (run_first c (grid0.coords t₀) (ms0 t₀) (hs0 t₀) (ms1 t₀) (hs1 t₀) (ms2 t₀) (hs2 t₀) (ms3 t₀) (hs3 t₀) (ms4 t₀) (hs4 t₀)
      (ms5 t₀) (hs5 t₀) scM (Memref.isWhole_whole _) ((hfirst t₀).mpr rfl) (seqB m c t₀) (wB m c t₀)
      (win0_2.fill (grid0.coords t₀) d2 (iblk m c 2 t₀)) (biasB m c t₀) (slopeB m c t₀) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]
    · iexists d2
      rw [show (win0 2).cut (grid0.coords t₀) (adjB m c t₀) = iblk m c 2 t₀ from win0_2.cut_fill _ _ _]
      iexact H2
    isplitl [H3]; · iexact H3
    isplitl [H4]; · iexact H4
    iexists (k0_pay2 (F := Ideal) (win0_2.fill (grid0.coords t₀) d2 (iblk m c 2 t₀)) (projB m c) (biasB m c t₀) (slopeB m c t₀))
    rw [show (win0 5).fill (grid0.coords t₀) (k0_pay2 (F := Ideal) (win0_2.fill (grid0.coords t₀) d2 (iblk m c 2 t₀)) (projB m c) (biasB m c t₀) (slopeB m c t₀)) ((win0 5).cut (grid0.coords t₀) (outB m c t₀)) = (k0_pay2 (F := Ideal) (win0_2.fill (grid0.coords t₀) d2 (iblk m c 2 t₀)) (projB m c) (biasB m c t₀) (slopeB m c t₀)) from
      win0_5.fill_congr_cut (grid0.coords t₀) (cut_pay2_fill t₀ d2 _ (iblk m c 2 t₀) (projB m c) (biasB m c t₀) (slopeB m c t₀))]
    iexact H5
  · rw [Phi_later m c t h0]
    iintro ⟨⟨HS, Hg⟩, Ho, ⟨%d0, H0⟩, ⟨%d1, H1⟩, ⟨%d2, H2⟩, ⟨%d3, H3⟩, ⟨%d4, H4⟩, ⟨%X5, H5⟩⟩
    iapply (run_later c (grid0.coords t) (ms0 t) (hs0 t) (ms1 t) (hs1 t) (ms2 t) (hs2 t) (ms3 t) (hs3 t) (ms4 t) (hs4 t)
      (ms5 t) (hs5 t) scM (Memref.isWhole_whole _) (fun h => h0 ((hfirst t).mp h)) (seqB m c t) (wB m c t)
      (win0_2.fill (grid0.coords t) d2 (iblk m c 2 t)) (biasB m c t) (slopeB m c t) (projB m c) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]
    · iexists d2
      rw [show (win0 2).cut (grid0.coords t) (adjB m c t) = iblk m c 2 t from win0_2.cut_fill _ _ _]
      iexact H2
    isplitl [H3]; · iexact H3
    isplitl [H4]; · iexact H4
    iexists (k0_pay2 (F := Ideal) (win0_2.fill (grid0.coords t) d2 (iblk m c 2 t)) (projB m c) (biasB m c t) (slopeB m c t))
    rw [show (win0 5).fill (grid0.coords t) (k0_pay2 (F := Ideal) (win0_2.fill (grid0.coords t) d2 (iblk m c 2 t)) (projB m c) (biasB m c t) (slopeB m c t)) ((win0 5).cut (grid0.coords t) (outB m c t)) = (k0_pay2 (F := Ideal) (win0_2.fill (grid0.coords t) d2 (iblk m c 2 t)) (projB m c) (biasB m c t) (slopeB m c t)) from
      win0_5.fill_congr_cut (grid0.coords t) (cut_pay2_fill t d2 _ (iblk m c 2 t) (projB m c) (biasB m c t) (slopeB m c t))]
    iexact H5

/-! ## The run, every array of the pipeline named -/

set_option backward.isDefEq.respectTransparency.types false in
/-- Every weakly fair execution of @main terminates with every array of the pipeline at what the proof data compute —
    the output array overwritten block by block by the named output blocks' rows inside the array — and every other
    unscoped buffer as the host line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Body

end
-- ==== Proof.IdealFinal.lean ====
import proofs.«150342_g738734375061_bridgefix_242_20_alg».proof.Proof.IdealData
import proofs.«150342_g738734375061_bridgefix_242_20_alg».proof.Proof.Payload
import proofs.«150342_g738734375061_bridgefix_242_20_alg».proof.Proof.Spec
import Idealize.ShloMosaic.Lib.Pipeline.Value
import Idealize.ShloMosaic.Lib.ValueIdx
import Idealize.ShloMosaic.Lib.ValueLayout
import Idealize.ShloMosaic.Lib.StableHlo.Run

/-!
# The output array after the run, and the program's result, over the extended reals

The region writes its output array in 42 blocks of 240 rows, the last one cut at the array's end
(`10000 = 41 · 240 + 160`). At grid point `t` the block written back holds, at `(p, d)`, the leaky rectifier of
`(∑ j, adj (240·t + p) j · P j d) + bias d`, where `P = seq · Wᵀ` is formed once from the whole arrays: the stripe
of `adj` is rows `240·t …` of the array on the rows that lie inside it, the four other inputs are whole-array
blocks, and the bias row and the slope are the argument vector and scalar with unit axes added by the two host
lines before the region. So each block written back is the corresponding block of ONE function of the argument
arrays, the specification's `out2`; row `r` lies in the block of point `r / 240`, so the blocks cover the array and
the array ends holding `out2`. The host line after the region adds a leading unit axis: the result is `out3`.
-/

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The host lines before the region -/

/-- The bias row as the region finds it: the bias vector with a leading unit axis. -/
theorem V_bias (c : Dev nD) :
    (V m c main_v0 : S1x128.Idx → Ideal .f32) = shapeCast S1x128 (m ((c : Thread nD τ).loc main_arg3) : S128.Idx → Ideal .f32) shapeCasts_S128_S1x128 := by
  dsimp only [Gen.V, Gen.V0]
  simp only [hostOps0, List.flatten_cons, List.flatten_nil, List.append_nil, List.cons_append, List.nil_append]
  after_results
  rfl

/-- The slope as the region finds it: the scalar as a one-entry matrix. -/
theorem V_slope (c : Dev nD) :
    (V m c main_v1 : S1x1.Idx → Ideal .f32) = shapeCast S1x1 (m ((c : Thread nD τ).loc main_arg4) : S_.Idx → Ideal .f32) shapeCasts_S_S1x1 := by
  dsimp only [Gen.V, Gen.V0]
  simp only [hostOps0, List.flatten_cons, List.flatten_nil, List.append_nil, List.cons_append, List.nil_append]
  after_results
  rfl

/-- A scalar cast to a one-entry matrix reads the scalar. -/
theorem shapeCast_scalar_11 {α : Type} (x : S_.Idx → α) (h : S_.ShapeCasts S1x1) :
    shapeCast S1x1 x h (ix2 (0 : Fin 1) (0 : Fin 1)) = x ix0 :=
  shapeCast_apply x h _ _ (by
    rw [Shape.rowMajor_val_two]
    show (Shape.rowMajorPi _ _).val = 0 * 1 + 0
    rw [Shape.rowMajorPi_zero])

/-! ## The grid, point by point -/

/-- The block indices and the cut extents, decided over the 42 grid points: the four whole-array windows sit at
    block `(0, 0)`; the stripe and the output block sit at `(t, 0)`; they are cut alike along the rows and not at
    all along the columns; the output block's rows inside the array are `240·t ≤ row < min (240·t + 240) 10000`. -/
theorem pt_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_2.index t (0 : Fin 2) = t.val ∧ win0_2.index t (1 : Fin 2) = 0
    ∧ win0_5.index t (0 : Fin 2) = t.val ∧ win0_5.index t (1 : Fin 2) = 0
    ∧ win0_5.xsize (grid0.coords t) (0 : Fin 2) = win0_2.xsize (grid0.coords t) (0 : Fin 2)
    ∧ win0_2.xsize (grid0.coords t) (1 : Fin 2) = 10000
    ∧ win0_5.xsize (grid0.coords t) (1 : Fin 2) = 128
    ∧ t.val * 240 + win0_5.xsize (grid0.coords t) (0 : Fin 2) = min (t.val * 240 + 240) 10000 :=
  (by decide +kernel : ∀ t : Fin grid0.N, _)

/-! ## The blocks read off the argument arrays -/

/-- The block of `seq` is the whole array. -/
theorem seq_blk (c : Dev nD) (t : Fin cfg0.N) : seqB m c t = m ((c : Thread nD τ).loc main_arg0) := by
  obtain ⟨e0, e1, -⟩ := pt_facts t
  funext y
  show V m c main_arg0 (((cfg0.win 0).blk t).view.emb y) = _
  rw [V_main_arg0]
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The block of `W` is the whole array. -/
theorem w_blk (c : Dev nD) (t : Fin cfg0.N) : wB m c t = m ((c : Thread nD τ).loc main_arg2) := by
  obtain ⟨-, -, e0, e1, -⟩ := pt_facts t
  funext y
  show V m c main_arg2 (((cfg0.win 1).blk t).view.emb y) = _
  rw [V_main_arg2]
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The block of the bias row, at `(0, d)`, is the bias vector at `d`. -/
theorem bias_at (c : Dev nD) (t : Fin cfg0.N) (d : Fin 128) :
    biasB m c t (ix2 (0 : Fin 1) d) = (m ((c : Thread nD τ).loc main_arg3) : S128.Idx → Ideal .f32) (ix1 d) := by
  obtain ⟨-, -, -, -, e0, e1, -⟩ := pt_facts t
  show (V m c main_v0 : S1x128.Idx → Ideal .f32) (((cfg0.win 3).blk t).view.emb (ix2 (0 : Fin 1) d)) = _
  rw [V_bias, show ((cfg0.win 3).blk t).view.emb (ix2 (0 : Fin 1) d) = ix2 (0 : Fin 1) d from funext fun a => Fin.ext (by
    match a with
    | ⟨0, _⟩ => show win0_3.index t (0 : Fin 2) * 1 + 1 * 0 = 0; omega
    | ⟨1, _⟩ => show win0_3.index t (1 : Fin 2) * 128 + 1 * d.val = d.val; omega)]
  exact shapeCast_a_1a_apply _ _ _ _

/-- The block of the slope, at its one entry, is the scalar. -/
theorem slope_at (c : Dev nD) (t : Fin cfg0.N) :
    slopeB m c t (ix2 (0 : Fin 1) (0 : Fin 1)) = (m ((c : Thread nD τ).loc main_arg4) : S_.Idx → Ideal .f32) ix0 := by
  obtain ⟨-, -, -, -, -, -, e0, e1, -⟩ := pt_facts t
  show (V m c main_v1 : S1x1.Idx → Ideal .f32) (((cfg0.win 4).blk t).view.emb (ix2 (0 : Fin 1) (0 : Fin 1))) = _
  rw [V_slope, show ((cfg0.win 4).blk t).view.emb (ix2 (0 : Fin 1) (0 : Fin 1)) = ix2 (0 : Fin 1) (0 : Fin 1) from funext fun a => Fin.ext (by
    match a with
    | ⟨0, _⟩ => show win0_4.index t (0 : Fin 2) * 1 + 1 * 0 = 0; omega
    | ⟨1, _⟩ => show win0_4.index t (1 : Fin 2) * 1 + 1 * 0 = 0; omega)]
  exact shapeCast_scalar_11 _ _

/-- The stripe of `adj` at point `t`, on a row `p` that lies inside the array, is row `240·t + p` of the array. -/
theorem adj_blk (c : Dev nD) (t : Fin cfg0.N) (p : Fin 240) (j : Fin 10000) (r : Fin 10000) (hr : r.val = t.val * 240 + p.val) :
    adjB m c t (ix2 p j) = (m ((c : Thread nD τ).loc main_arg1) : S10000x10000.Idx → Ideal .f32) (ix2 r j) := by
  obtain ⟨-, -, -, -, -, -, -, -, e0, e1, -, -, x0, x1, -, xr⟩ := pt_facts t
  have hp := p.isLt; have hrl := r.isLt; have hj := j.isLt
  have hm : win0_2.moved (grid0.coords t) (ix2 p j) = true := (win0_2.moved_iff _ _).mpr (fun a => by
    match a with
    | ⟨0, _⟩ => show p.val < win0_2.xsize (grid0.coords t) (0 : Fin 2); omega
    | ⟨1, _⟩ => show j.val < win0_2.xsize (grid0.coords t) (1 : Fin 2); omega)
  unfold adjB Window.fill
  rw [dif_pos hm]
  show V m c main_arg1 (((cfg0.win 2).blk t).view.emb _) = _
  rw [V_main_arg1]
  refine congrArg _ (funext fun a => Fin.ext ?_)
  match a with
  | ⟨0, _⟩ => show win0_2.index t (0 : Fin 2) * 240 + 1 * p.val = r.val; omega
  | ⟨1, _⟩ => show win0_2.index t (1 : Fin 2) * 10000 + 1 * j.val = j.val; omega

/-! ## One block entry is one entry of the specification -/

/-- Over any arrays: if the stripe's row `p` is the array's row `r`, the bias row is the bias vector and the one-entry
    matrix is the scalar, then the stripe step's stored value at `(p, d)`, over the projection step's stored array,
    is the specification at `(r, d)`. -/
theorem core (seqA : Vec Ideal S10000x128 .f32) (adjA : Vec Ideal S10000x10000 .f32) (wA : Vec Ideal S128x128 .f32)
    (biasA : S128.Idx → Ideal .f32) (aA : S_.Idx → Ideal .f32)
    (X : Vec Ideal S240x10000 .f32) (b2 : Vec Ideal S1x128 .f32) (a2 : Vec Ideal S1x1 .f32)
    (p : Fin 240) (d : Fin 128) (r : Fin 10000)
    (hX : ∀ j : Fin 10000, X (ix2 p j) = adjA (ix2 r j))
    (hb : b2 (ix2 (0 : Fin 1) d) = biasA (ix1 d)) (ha : a2 (ix2 (0 : Fin 1) (0 : Fin 1)) = aA ix0) :
    k0_pay2 (F := Ideal) X (k0_pay1 (F := Ideal) seqA wA) b2 a2 (ix2 p d) = Cert.GcnSpec.out2 seqA adjA wA biasA aA (ix2 r d) := by
  rw [Payload.pay2_apply, hb, ha]
  simp only [hX, Payload.pay1_apply]
  rfl

/-- The specification's array of the argument arrays. -/
abbrev outG (c : Dev nD) : S10000x128.Idx → Ideal .f32 :=
  Cert.GcnSpec.out2 (m ((c : Thread nD τ).loc main_arg0)) (m ((c : Thread nD τ).loc main_arg1)) (m ((c : Thread nD τ).loc main_arg2))
    (m ((c : Thread nD τ).loc main_arg3)) (m ((c : Thread nD τ).loc main_arg4))

/-- The output block at point `t`, on a row `p` inside the array, is row `240·t + p` of the specification's array. -/
theorem outB_at (c : Dev nD) (t : Fin cfg0.N) (p : Fin 240) (d : Fin 128) (r : Fin 10000) (hr : r.val = t.val * 240 + p.val) :
    outB m c t (ix2 p d) = outG m c (ix2 r d) := by
  unfold outB projB
  rw [seq_blk m c t₀, w_blk m c t₀]
  exact core (m ((c : Thread nD τ).loc main_arg0)) (m ((c : Thread nD τ).loc main_arg1)) (m ((c : Thread nD τ).loc main_arg2))
    (m ((c : Thread nD τ).loc main_arg3)) (m ((c : Thread nD τ).loc main_arg4)) (adjB m c t) (biasB m c t) (slopeB m c t) p d r
    (fun j => adj_blk m c t p j r hr) (bias_at m c t d) (slope_at m c t)

/-! ## Every block written back is a block of the specification's array -/

/-- What point `t` writes back is block `t`, cut at the array's end, of the specification's array. -/
theorem flushed_eq (c : Dev nD) (t : Fin cfg0.N) :
    (dats m 0 c).flushed 5 t = ((cfg0.win 5).blk t).view.read (Elt Ideal) (outG m c) := by
  show (cfg0.win 5).cut (grid0.coords t) ((dats m 0 c).after 5 t) = _
  rw [after_5]
  funext j'
  obtain ⟨-, -, -, -, -, -, -, -, -, -, i0, i1, -, -, x1, xr⟩ := pt_facts t
  have h0 : (j' (0 : Fin 2)).val < win0_5.xsize (grid0.coords t) (0 : Fin 2) := (j' (0 : Fin 2)).isLt
  have h1 : (j' (1 : Fin 2)).val < win0_5.xsize (grid0.coords t) (1 : Fin 2) := (j' (1 : Fin 2)).isLt
  have hp : (j' (0 : Fin 2)).val < 240 := by omega
  have hd : (j' (1 : Fin 2)).val < 128 := by omega
  have hr : t.val * 240 + (j' (0 : Fin 2)).val < 10000 := by omega
  have eL : win0_5.xinj (grid0.coords t) j' = ix2 (⟨(j' (0 : Fin 2)).val, hp⟩ : Fin 240) (⟨(j' (1 : Fin 2)).val, hd⟩ : Fin 128) :=
    funext fun a => Fin.ext (by match a with | ⟨0, _⟩ => rfl | ⟨1, _⟩ => rfl)
  have eR : ((cfg0.win 5).blk t).view.emb j'
      = ix2 (⟨t.val * 240 + (j' (0 : Fin 2)).val, hr⟩ : Fin 10000) (⟨(j' (1 : Fin 2)).val, hd⟩ : Fin 128) :=
    funext fun a => Fin.ext (by
      match a with
      | ⟨0, _⟩ => show win0_5.index t (0 : Fin 2) * 240 + 1 * (j' (0 : Fin 2)).val = t.val * 240 + (j' (0 : Fin 2)).val; omega
      | ⟨1, _⟩ => show win0_5.index t (1 : Fin 2) * 128 + 1 * (j' (1 : Fin 2)).val = (j' (1 : Fin 2)).val; omega)
  show outB m c t (win0_5.xinj (grid0.coords t) j') = outG m c (((cfg0.win 5).blk t).view.emb j')
  rw [eL, eR]
  exact outB_at m c t _ _ _ rfl

/-- An index of the array is in point `t`'s block iff its row is among the block's rows inside the array. -/
theorem mem_blk (t : Fin cfg0.N) (i : S10000x128.Idx) :
    i ∈ ((cfg0.win 5).blk t).view.set
      ↔ t.val * 240 ≤ (i (0 : Fin 2)).val ∧ (i (0 : Fin 2)).val < t.val * 240 + win0_5.xsize (grid0.coords t) (0 : Fin 2) := by
  obtain ⟨-, -, -, -, -, -, -, -, -, -, i0, i1, -, -, x1, xr⟩ := pt_facts t
  show i ∈ ((View.whole main_v2).slice (win0_5.rect t)).set ↔ _
  rw [View.set_slice_whole, Rect.mem_set_unit]
  have hc : (i (1 : Fin 2)).val < 128 := (i (1 : Fin 2)).isLt
  refine ⟨fun h => ?_, fun h a => ?_⟩
  · have b0 : win0_5.index t (0 : Fin 2) * 240 ≤ (i (0 : Fin 2)).val
        ∧ (i (0 : Fin 2)).val < win0_5.index t (0 : Fin 2) * 240 + win0_5.xsize (grid0.coords t) (0 : Fin 2) := h 0
    omega
  · match a with
    | ⟨0, _⟩ =>
      show win0_5.index t (0 : Fin 2) * 240 ≤ (i (0 : Fin 2)).val
        ∧ (i (0 : Fin 2)).val < win0_5.index t (0 : Fin 2) * 240 + win0_5.xsize (grid0.coords t) (0 : Fin 2)
      omega
    | ⟨1, _⟩ =>
      show win0_5.index t (1 : Fin 2) * 128 ≤ (i (1 : Fin 2)).val
        ∧ (i (1 : Fin 2)).val < win0_5.index t (1 : Fin 2) * 128 + win0_5.xsize (grid0.coords t) (1 : Fin 2)
      omega

/-- Row `r` lies in the block of point `r / 240`: the blocks written back cover the array. -/
theorem cover (i : S10000x128.Idx) :
    ∃ t : Fin cfg0.N, (cfg0.win 5).flush t = true ∧ i ∈ ((cfg0.win 5).blk t).view.set := by
  have hi : (i (0 : Fin 2)).val < 10000 := (i (0 : Fin 2)).isLt
  have hN : cfg0.N = 42 := N_0
  obtain ⟨q, hq⟩ : ∃ q : Fin cfg0.N, q.val = (i (0 : Fin 2)).val / 240 := ⟨⟨(i (0 : Fin 2)).val / 240, by omega⟩, rfl⟩
  obtain ⟨-, -, -, -, -, -, -, -, -, -, -, -, -, -, -, xr⟩ := pt_facts q
  refine ⟨q, flush0_5 q, ?_⟩
  rw [mem_blk]
  omega

/-- THE OUTPUT ARRAY after the run is the specification's `out2` of the argument arrays. -/
theorem final5 (c : Dev nD) : (dats m 0 c).arrAt 5 cfg0.N
    = Cert.GcnSpec.out2 (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 (outG m c) (fun t _ => flushed_eq m c t) cover

end Cert.KernelIdeal.Body

end
-- ==== Proof.IdealTail.lean ====
import proofs.«150342_g738734375061_bridgefix_242_20_alg».proof.Proof.IdealFinal
import Idealize.ShloMosaic.Lib.Pipeline.Value
import Idealize.ShloMosaic.Lib.ValueIdx
import Idealize.ShloMosaic.Lib.StableHlo.Run

/-!
# The program's result: the region's output array with a leading unit axis

The one host line after the region broadcasts the `[10000, 128]` array the region wrote to `[1, 10000, 128]`: entry
`(_, r, d)` of the result is entry `(r, d)` of that array, which is the specification's.
-/

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- After the later host line the result buffer holds the specification's `[1, 10000, 128]` array. -/
theorem tail3 (c : Dev nD) : Pipeline.afterTail₀ cfgs (dats m) 0 (V0 m) [hostOps1] c main_v3
      = Cert.GcnSpec.out3 (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2)
      = Cert.GcnSpec.out2 (m ((c : Thread nD τ).loc main_arg0)) (m ((c : Thread nD τ).loc main_arg1)) (m ((c : Thread nD τ).loc main_arg2)) (m ((c : Thread nD τ).loc main_arg3)) (m ((c : Thread nD τ).loc main_arg4))
    from (Pipeline.withArrays_arr spec0 launch0.win.arr_inj c _ _ 5).trans (final5 m c)]
  funext i
  rw [broadcastInDim_apply _ bcast_S10000x128_S1x10000x128_1_2 _ i (ix2 (i 1) (i 2)) (fun a => match a with
    | ⟨0, _⟩ => by show (i 1).val = if (10000 : Nat) = 1 then 0 else (i 1).val; rw [if_neg (by decide)]
    | ⟨1, _⟩ => by show (i 2).val = if (128 : Nat) = 1 then 0 else (i 2).val; rw [if_neg (by decide)])]
  rfl

end Cert.KernelIdeal.Body

end
-- ==== Proof.RefValue.lean ====
import proofs.«150342_g738734375061_bridgefix_242_20_alg».proof.Proof.Gen.ReferenceIdeal.Run
import proofs.«150342_g738734375061_bridgefix_242_20_alg».proof.Proof.Gen.ReferenceIdeal.Read
import proofs.«150342_g738734375061_bridgefix_242_20_alg».proof.Proof.Spec
import Idealize.ShloMosaic.Lib.ValueIdx
import Idealize.ShloMosaic.PureOps.Ideal

/-!
# The reference program computes the specification

Read at an index `i = (_, r, d)`, the reference's last operation is the leaky rectifier of
`(∑ j, adj r j · (∑ k, seq j k · W d k)) + bias d`. Each layout operation on the way (the transpose of `W`, the
broadcasts that add the leading unit axis, the broadcast of `bias` along the rows, the broadcasts of the two
scalars) only renames the index, so the composed index functions are the coordinate constructors of the
specification; the two contractions are the two sums; and over the extended reals the float addition and
multiplication are `+` and `*`.
-/

noncomputable section

namespace Cert.ReferenceIdeal.RefValue

open Cert.ReferenceIdeal Cert.ReferenceIdeal.Read Idealize.ShloMosaic Idealize.ShloMosaic.ValueIdx

/-- `bias` is read at the last coordinate: the two broadcasts `[128] → [1,1,128] → [1,10000,128]` keep it. -/
theorem idx_bias (i : S1x10000x128.Idx) : idx_main_v5 (idx_main_v6 i) = ix1 (i 2) :=
  funext fun a => Fin.ext (by match a with | ⟨0, _⟩ => rfl)

/-- `adj` is read at `(r, j)`: the broadcast `[10000,10000] → [1,10000,10000]` drops the leading coordinate. -/
theorem idx_adj (i : S1x10000x128.Idx) (j : Fin 10000) : idx_main_v2 (lidx_main_v4 i j) = ix2 (i 1) j :=
  funext fun a => Fin.ext (by match a with | ⟨0, _⟩ => rfl | ⟨1, _⟩ => rfl)

/-- `seq` is read at `(j, k)` inside the inner contraction. -/
theorem idx_seq (i : S1x10000x128.Idx) (j : Fin 10000) (k : Fin 128) :
    lidx_main_v1 (idx_main_v3 (ridx_main_v4 i j)) k = ix2 j k :=
  funext fun a => Fin.ext (by match a with | ⟨0, _⟩ => rfl | ⟨1, _⟩ => rfl)

/-- `W` is read at `(d, k)`: the contraction reads the transposed array at `(k, d)`, and the transpose swaps back. -/
theorem idx_W (i : S1x10000x128.Idx) (j : Fin 10000) (k : Fin 128) :
    idx_main_v0 (ridx_main_v1 (idx_main_v3 (ridx_main_v4 i j)) k) = ix2 (i 2) k :=
  funext fun a => Fin.ext (by match a with | ⟨0, _⟩ => rfl | ⟨1, _⟩ => rfl)

/-- The reference's result is the specification's `out3`. -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S_, .f32⟩ : BufTy).Contents (Elt Ideal)) :
    val_main_v12 (F := Ideal) x0 x1 x2 x3 x4 = Cert.GcnSpec.out3 x0 x1 x2 x3 x4 := by
  funext i
  rw [val_main_v12_apply, val_main_v9_apply, val_main_v11_apply, val_main_v10_apply, val_main_v8_apply,
    val_main_cst_apply, val_main_v7_apply, val_main_v6_apply, val_main_v5_apply, val_main_v4_apply]
  simp only [val_main_v2_apply, val_main_v3_apply, val_main_v1_apply, val_main_v0_apply,
    idx_bias, idx_adj, idx_seq, idx_W]
  rfl

end Cert.ReferenceIdeal.RefValue

end
-- ==== Proof.lean ====
/-
  The certificate's claims, assembled.

  The kernel computes `PReLU(adj · (seq · Wᵀ) + bias)` in one pipelined region over 42 row stripes of `adj`
  (240 rows each; the last stripe and the last output block overhang the 10000-row arrays by 80 rows and are cut at
  the arrays' end): at the first grid point it forms the projection `seq · Wᵀ` into a scratch that persists, and at
  every point multiplies the stripe by the scratch, adds the bias row and applies the leaky rectifier; a host line then
  adds a leading unit axis. The reference forms the same projection, the same product (as a batched contraction over a
  leading unit axis), adds the bias and applies the same rectifier.

  * The three frames. The two kernel programs run to the end, fault nowhere and leave their arguments unchanged at
    ANY float instance: the body's two control cases (projection at the first point; stripe product at every point)
    are run on whole staging buffers, the scratch's contents tracked from point to point, and the output block's
    contents left unnamed — at the word level a row of the matrix product is not known to depend on its own row of
    the stripe alone, so what the body computes from the cut stripe's unnamed rows cannot be named. The reference's
    frame is its run with the result dropped.
  * `preserves`: the idealization rewrote no operation.
  * `algebraic`: over the extended reals each row of the stripe product depends on that row of the stripe alone, so
    the rows of each output block inside the array are named, the blocks' rows tile the array, and entry `(r, d)`
    of the kernel's array is the rectifier of `(∑ j, adj r j · ∑ k, seq j k · W d k) + bias d`; the reference's
    result read at an index is the same expression — the same sums of the same products in the same order, so no
    property of the inputs is used.
-/
import proofs.«150342_g738734375061_bridgefix_242_20_alg».proof.Defs
import proofs.«150342_g738734375061_bridgefix_242_20_alg».proof.Proof.Gen.Kernel
import proofs.«150342_g738734375061_bridgefix_242_20_alg».proof.Proof.Gen.KernelIdeal
import proofs.«150342_g738734375061_bridgefix_242_20_alg».proof.Proof.Gen.ReferenceIdeal
import proofs.«150342_g738734375061_bridgefix_242_20_alg».proof.Proof.Gen.Pre_finite_inputs
import proofs.«150342_g738734375061_bridgefix_242_20_alg».proof.Proof.BitsData
import proofs.«150342_g738734375061_bridgefix_242_20_alg».proof.Proof.IdealExact
import proofs.«150342_g738734375061_bridgefix_242_20_alg».proof.Proof.IdealFinal
import proofs.«150342_g738734375061_bridgefix_242_20_alg».proof.Proof.IdealTail
import proofs.«150342_g738734375061_bridgefix_242_20_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Body.frame m ρ

theorem frame_kernelIdeal : Cert.frame_KernelIdeal := fun m ρ _ => Cert.KernelIdeal.Body.frame m ρ

theorem frame_reference : Cert.frame_ReferenceIdeal := fun m ρ _ =>
  (θ_run Cert.ReferenceIdeal.defs _ _).mono (fun _ h c => (h c).2) (Cert.ReferenceIdeal.Value.run (F := Ideal) m ρ)

section
open Cert.KernelIdeal Cert.KernelIdeal.Gen Cert.KernelIdeal.Body

/-- The idealized kernel's run with its result named: the specification's function of the argument arrays; the
    arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3)
        = Cert.GcnSpec.out3 (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v3 (Pipeline.mem_restRefs_of main_v3 (by decide) (by decide))).trans (tail3 m c),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 1).trans (((dats m 0 c).arrAt_in 1 rfl _).trans ((A_eq m c 1).trans (V_main_arg2 m c))),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end

theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
